-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S8 : Shape := ⟨1, ![8]⟩
abbrev S1024x8 : Shape := ⟨2, ![1024, 8]⟩
abbrev S256x1024 : Shape := ⟨2, ![256, 1024]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S8 : S_.BroadcastsInDim S8 (![] : Fin 0 → Fin S8.rank)
  reducesTo_S8_S_d0 : S8.ReducesTo [0] S_
  bcast_S_S1024x8 : S_.BroadcastsInDim S1024x8 (![] : Fin 0 → Fin S1024x8.rank)
  reducesTo_S1024x8_S_d0_1 : S1024x8.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  main_v18

def fn {F : FTy → Type} [FloatOps F] (main_arg0 : FVec F S8x4096x256 .f32) (main_arg1 : FVec F S8 .f32) (main_arg2 : FVec F S1024x8 .f32) (main_arg3 : FVec F S256x1024 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S1024x8 .f32 := Host.absf main_arg2
  let main_cst_2 : FVec F S_ .f32 := constant S_ .f32 0x7F800000#32
  let main_v10 : FVec F S1024x8 .f32 := broadcastInDim S1024x8 ![] bcast_S_S1024x8 main_cst_2
  let main_v11 : IVec S1024x8 1 := cmpf .olt main_v9 main_v10
  let main_c_3 : IVec S_ 1 := constantI S_ 1 1#1
  let main_v12 : IVec S_ 1 := (fun x v => Host.reduce IntOp.andi x v reducesTo_S1024x8_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_v13 main_v16
-- ==== Kernel.lean ====
abbrev S8x4096x256 : Shape := ⟨3, ![8, 4096, 256]⟩
abbrev S8 : Shape := ⟨1, ![8]⟩
abbrev S1024x8 : Shape := ⟨2, ![1024, 8]⟩
abbrev S256x1024 : Shape := ⟨2, ![256, 1024]⟩
abbrev S8x1024 : Shape := ⟨2, ![8, 1024]⟩
abbrev S1024x256 : Shape := ⟨2, ![1024, 256]⟩
abbrev S1x1024x256 : Shape := ⟨3, ![1, 1024, 256]⟩
abbrev S1x8 : Shape := ⟨2, ![1, 8]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x4096x256, .f32⟩
  | .hbm, ⟨1, _⟩ => ⟨S8, .f32⟩
  | .hbm, ⟨2, _⟩ => ⟨S1024x8, .f32⟩
  | .hbm, ⟨3, _⟩ => ⟨S256x1024, .f32⟩
  | .hbm, ⟨4, _⟩ => ⟨S8, .f32⟩
  | .hbm, ⟨5, _⟩ => ⟨S8x1024, .f32⟩
  | .hbm, ⟨6, _⟩ => ⟨S8x1024, .bf16⟩
  | .hbm, ⟨7, _⟩ => ⟨S1024x256, .f32⟩
  | .hbm, ⟨8, _⟩ => ⟨S1024x256, .bf16⟩
  | .hbm, ⟨9, _⟩ => ⟨S8x4096x256, .f32⟩
  | .local _ .vmem, ⟨0, _⟩ => ⟨S1x1024x256, .f32⟩
  | .local _ .vmem, ⟨1, _⟩ => ⟨S1x1024x256, .f32⟩
  | .local _ .vmem, ⟨2, _⟩ => ⟨S8, .f32⟩
  | .local _ .vmem, ⟨3, _⟩ => ⟨S8x1024, .bf16⟩
  | .local _ .vmem, ⟨4, _⟩ => ⟨S1024x256, .bf16⟩
  | .local _ .vmem, ⟨5, _⟩ => ⟨S1x1024x256, .f32⟩
  | .local _ .vmem, ⟨6, _⟩ => ⟨S1x1024x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x8_S8x1024_1_0 : S1024x8.Transposes [1, 0] S8x1024
  bitsLt_bf16_f32 : FTy.bits .bf16 < FTy.bits .f32
  transposes_S256x1024_S1024x256_1_0 : S256x1024.Transposes [1, 0] S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  slices_S1024x256_o0_0_S1024x8 : S1024x256.Slices ![0, 0] S1024x8
  inb_S8_S8_0 : ∀ a, (![0] : Fin 1 → Nat) a + S8.size a ≤ S8.size a
  h_S8 : 0 < S8.numel
  shapeCasts_S8_S8 : S8.ShapeCasts S8
  shapeCasts_S8_S1x8 : S8.ShapeCasts S1x8
  broadcasts_S1x8_S1024x8 : S1x8.Broadcasts S1024x8
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S1024x256_S1x1024x256 : S1024x256.ShapeCasts S1x1024x256
  dot_S1024x8_S8x1024_S1024x1024_1_0_0_1_n_n_wf : DotDims.WF S1024x8 S8x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x4096x256.size a
  hwx0_0 : ∀ i : grid0.Coords, EltTy.bits .f32 = 32 ∨ (Rect.block (s := S8x4096x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8.size a ≤ S8.size a
  hwx0_1 : ∀ i : grid0.Coords, EltTy.bits .f32 = 32 ∨ (Rect.block (s := S8) S8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x1024.size a
  hwx0_2 : ∀ i : grid0.Coords, EltTy.bits .bf16 = 32 ∨ (Rect.block (s := S8x1024) S8x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S8x4096x256.size a
  hwx0_4 : ∀ i : grid0.Coords, EltTy.bits .f32 = 32 ∨ (Rect.block (s := S8x4096x256) S1x1024x256.size (cc0_transform_4 i) (hinb0_4 i)).WholeWords (EltTy.packing .f32)

variable [Facts₀]

def dot_S1024x8_S8x1024_S1024x1024_1_0_0_1_n_n : DotDims S1024x8 S8x1024 S1024x1024 where
  lhsContracting := [1]
  rhsContracting := [0]
  lhsNonContracting := [0]
  rhsNonContracting := [1]
  lhsBatch := []
  rhsBatch := []
  wf := dot_S1024x8_S8x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S8 : Shape := ⟨1, ![8]⟩
abbrev S1024x8 : Shape := ⟨2, ![1024, 8]⟩
abbrev S256x1024 : Shape := ⟨2, ![256, 1024]⟩
abbrev S8x4096x8 : Shape := ⟨3, ![8, 4096, 8]⟩
abbrev S1x1x8 : Shape := ⟨3, ![1, 1, 8]⟩
abbrev S8x4096x1024 : Shape := ⟨3, ![8, 4096, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8, .f32⟩
  | .hbm, ⟨2, _⟩ => ⟨S1024x8, .f32⟩
  | .hbm, ⟨3, _⟩ => ⟨S256x1024, .f32⟩
  | .hbm, ⟨4, _⟩ => ⟨S8x4096x8, .f32⟩
  | .hbm, ⟨5, _⟩ => ⟨S8x4096x8, .f32⟩
  | .hbm, ⟨6, _⟩ => ⟨S8, .f32⟩
  | .hbm, ⟨7, _⟩ => ⟨S1x1x8, .f32⟩
  | .hbm, ⟨8, _⟩ => ⟨S8x4096x8, .f32⟩
  | .hbm, ⟨9, _⟩ => ⟨S8x4096x8, .f32⟩
  | .hbm, ⟨10, _⟩ => ⟨S8x4096x1024, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  slices_S8x4096x256_S8x4096x8_0_0_0 : S8x4096x256.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S_S8x4096x1024 : S_.BroadcastsInDim S8x4096x1024 (![] : Fin 0 → Fin S8x4096x1024.rank)
  dot_S8x4096x8_S1024x8_S8x4096x1024_2_1_01_0_n_n_wf : DotDims.WF S8x4096x8 S1024x8 S8x4096x1024 [2] [1] [0, 1] [0] [] []
  dot_S8x4096x1024_S256x1024_S8x4096x256_2_1_01_0_n_n_wf : DotDims.WF S8x4096x1024 S256x1024 S8x4096x256 [2] [1] [0, 1] [0] [] []

variable [Facts₀]

def dot_S8x4096x8_S1024x8_S8x4096x1024_2_1_01_0_n_n : DotDims S8x4096x8 S1024x8 S8x4096x1024 where
  lhsContracting := [2]
  rhsContracting := [1]
  lhsNonContracting := [0, 1]
  rhsNonContracting := [0]
  lhsBatch := []
  rhsBatch := []
  wf := dot_S8x4096x8_S1024x8_S8x4096x1024_2_1_01_0_n_n_wf
def dot_S8x4096x1024_S256x1024_S8x4096x256_2_1_01_0_n_n : DotDims S8x4096x1024 S256x1024 S8x4096x256 where
  lhsContracting := [2]
  rhsContracting := [1]
  lhsNonContracting := [0, 1]
  rhsNonContracting := [0]
  lhsBatch := []
  rhsBatch := []
  wf := dot_S8x4096x1024_S256x1024_S8x4096x256_2_1_01_0_n_n_wf

class Facts : Prop extends Facts₀ where

variable [Facts]
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.TokenMlp.lean ====
/- The function both programs compute, index by index.

   For token (b, s) and output column e:

     out[b, s, e] = Σ_f max (Σ_q cos(x[b, s, q]) · cos(θ[q]) · W1[f, q], 0) · W2[e, f],

   q over the 8 wires (the first 8 of the 256 columns of x), f over the 1024 hidden units. The zero of the maximum is kept
   as the float word both programs print, so it is never evaluated. -/
import Idealize.ShloMosaic.PureOps.Ideal
import Idealize.ShloMosaic.Lib.ValueIdx

noncomputable section

namespace Cert.TokenMlp

open Idealize.ShloMosaic Idealize.ShloMosaic.ValueIdx
open scoped BigOperators

/-- Wire q is column q of a row of 256. -/
abbrev col (q : Fin 8) : Fin 256 := ⟨q.val, by have := q.isLt; omega⟩

/-- Hidden unit f of token (b, s): the rectified product of the token's 8 features with row f of W1. -/
def hidden (x : (⟨3, ![8, 4096, 256]⟩ : Shape).Idx → EReal) (θ : (⟨1, ![8]⟩ : Shape).Idx → EReal)
    (W1 : (⟨2, ![1024, 8]⟩ : Shape).Idx → EReal) (b : Fin 8) (s : Fin 4096) (f : Fin 1024) : EReal :=
  max (∑ q : Fin 8, (Ideal.cos (x (ix3 b s (col q))) * Ideal.cos (θ (ix1 q))) * W1 (ix2 f q)) (Ideal.ofBits .f32 0x00000000#32)

/-- The result array: the hidden units of the token against row e of W2. -/
def out (x : (⟨3, ![8, 4096, 256]⟩ : Shape).Idx → EReal) (θ : (⟨1, ![8]⟩ : Shape).Idx → EReal)
    (W1 : (⟨2, ![1024, 8]⟩ : Shape).Idx → EReal) (W2 : (⟨2, ![256, 1024]⟩ : Shape).Idx → EReal) :
    (⟨3, ![8, 4096, 256]⟩ : Shape).Idx → EReal :=
  fun i => ∑ f : Fin 1024, hidden x θ W1 (i 0) (i 1) f * W2 (ix2 (i 2) f)

end Cert.TokenMlp

end
-- ==== Proof.TokenEntry.lean ====
/- One entry of what the kernel's body stores, as a formula.

   A block holds 1024 tokens (rows) of 256 columns; only the first 8 columns feed the computation. For the token in row r
   and the output column e the stored value is

     Σ_f max (Σ_q cos(x[r, q]) · c[q] · A[q, f], 0) · B[f, e]        (q over the 8 wires, f over the 1024 hidden units),

   where x is the token block, c the per-wire cosines, and A, B the two weight matrices as the body loads them (the host has
   transposed them already). Narrowing to a shorter float format is the identity on the extended reals; each matrix product
   into the zero accumulator is its plain sum over the contracted coordinate; the slice, the shape casts and the broadcast
   only re-address their operand. -/
import proofs.«134714_j65481071396684_1_alg».proof.Proof.Gen.KernelIdeal.Skeleton
import proofs.«134714_j65481071396684_1_alg».proof.Proof.LibDotPlain
import proofs.«134714_j65481071396684_1_alg».proof.Proof.TokenMlp
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.DotPlain Cert.TokenMlp
open scoped BigOperators

/-- The feature of token r on wire q: the cosine of the token's q-th column times the wire's cosine. -/
theorem feature_apply (x0 : Vec Ideal S1x1024x256 .f32) (x1 : Vec Ideal S8 .f32) (r : Fin 1024) (q : Fin 8) :
    (mulf (cos (extractStridedSlice S1024x8 ![0, 0] (shapeCast S1024x256 x0 shapeCasts_S1x1024x256_S1024x256) slices_S1024x256_o0_0_S1024x8))
      (broadcastTo S1024x8 (shapeCast S1x8 (shapeCast S8 x1 shapeCasts_S8_S8) shapeCasts_S8_S1x8) broadcasts_S1x8_S1024x8) : FVec Ideal S1024x8 .f32) (ix2 r q)
      = Ideal.cos (x0 (ix3 (0 : Fin 1) r (col q))) * x1 (ix1 q) := by
  rw [mulf_apply]
  have hx : (cos (extractStridedSlice S1024x8 ![0, 0] (shapeCast S1024x256 x0 shapeCasts_S1x1024x256_S1024x256) slices_S1024x256_o0_0_S1024x8) : FVec Ideal S1024x8 .f32) (ix2 r q)
      = Ideal.cos (x0 (ix3 (0 : Fin 1) r (col q))) := by
    show Ideal.cos _ = Ideal.cos _
    refine congrArg Ideal.cos ?_
    refine (extractStridedSlice_apply _ _ _ (ix2 r q) (ix2 r (col q)) (fun a => ?_)).trans ?_
    · match a with
      | ⟨0, _⟩ => show r.val = 0 + r.val; omega
      | ⟨1, _⟩ => show q.val = 0 + q.val; omega
    · refine shapeCast_apply _ _ (ix2 r (col q)) (ix3 (0 : Fin 1) r (col q)) ?_
      rw [Shape.rowMajor_val_three, Shape.rowMajor_val_two]
      show ((0 : Nat) * 1024 + r.val) * 256 + q.val = r.val * 256 + q.val
      omega
  have hc : (broadcastTo S1024x8 (shapeCast S1x8 (shapeCast S8 x1 shapeCasts_S8_S8) shapeCasts_S8_S1x8) broadcasts_S1x8_S1024x8 : FVec Ideal S1024x8 .f32) (ix2 r q)
      = x1 (ix1 q) := by
    refine (broadcastTo_apply _ _ (ix2 r q) (ix2 (0 : Fin 1) q) (fun a => ?_)).trans ?_
    · match a with
      | ⟨0, _⟩ => show (0 : Nat) = if (1 : Nat) = 1 then 0 else r.val; rw [if_pos rfl]
      | ⟨1, _⟩ => show q.val = if (8 : Nat) = 1 then 0 else q.val; rw [if_neg (by decide)]
    · refine (shapeCast_apply _ _ (ix2 (0 : Fin 1) q) (ix1 q) ?_).trans ?_
      · rw [Shape.rowMajor_val_one, Shape.rowMajor_val_two]
        show q.val = (0 : Nat) * 8 + q.val
        omega
      · rw [shapeCast_self]
  rw [hx, hc]

/-- The stored entry for token r and output column e. -/
theorem pay_apply (x0 : Vec Ideal S1x1024x256 .f32) (x1 : Vec Ideal S8 .f32) (x2 : Vec Ideal S8x1024 .bf16) (x3 : Vec Ideal S1024x256 .bf16)
    (r : Fin 1024) (e : Fin 256) :
    k0_pay1 x0 x1 x2 x3 (ix3 (0 : Fin 1) r e)
      = ∑ f : Fin 1024, max (∑ q : Fin 8, (Ideal.cos (x0 (ix3 (0 : Fin 1) r (col q))) * x1 (ix1 q)) * x2 (ix2 q f)) (Ideal.ofBits .f32 0x00000000#32)
          * x3 (ix2 f e) := by
  unfold k0_pay1
  refine (shapeCast_apply _ _ (ix3 (0 : Fin 1) r e) (ix2 r e) ?_).trans ?_
  · rw [Shape.rowMajor_val_three, Shape.rowMajor_val_two]
    show r.val * 256 + e.val = ((0 : Nat) * 1024 + r.val) * 256 + e.val
    omega
  refine (matmul_zero_rows_cols _ rfl rfl rfl rfl rfl rfl none _ _ r e).trans ?_
  refine Finset.sum_congr rfl fun f _ => ?_
  refine congrArg₂ (· * ·) ?_ ?_
  · show max _ (Ideal.ofBits .f32 0x00000000#32) = _
    refine congrArg (max · (Ideal.ofBits .f32 0x00000000#32)) ?_
    refine (matmul_zero_rows_cols _ rfl rfl rfl rfl rfl rfl none _ _ r f).trans ?_
    refine Finset.sum_congr rfl fun q _ => ?_
    refine congrArg₂ (· * ·) (feature_apply x0 x1 r q) ?_
    rw [shapeCast_self]
  · rw [shapeCast_self]

/-- The stored entry is the specification's entry, once the block and the operand arrays are known to hold, at the
    positions the formula reads, the arguments' values at the positions the specification reads. -/
theorem entry_eq_out (x0 : Vec Ideal S1x1024x256 .f32) (x1 : Vec Ideal S8 .f32) (x2 : Vec Ideal S8x1024 .bf16) (x3 : Vec Ideal S1024x256 .bf16)
    (X : S8x4096x256.Idx → EReal) (θ : S8.Idx → EReal) (W1 : S1024x8.Idx → EReal) (W2 : S256x1024.Idx → EReal)
    (r : Fin 1024) (e : Fin 256) (i : S8x4096x256.Idx)
    (h0 : ∀ q : Fin 8, x0 (ix3 (0 : Fin 1) r (col q)) = X (ix3 (i 0) (i 1) (col q)))
    (h1 : ∀ q : Fin 8, x1 (ix1 q) = Ideal.cos (θ (ix1 q)))
    (h2 : ∀ (q : Fin 8) (f : Fin 1024), x2 (ix2 q f) = W1 (ix2 f q))
    (h3 : ∀ f : Fin 1024, x3 (ix2 f e) = W2 (ix2 (i 2) f)) :
    k0_pay1 x0 x1 x2 x3 (ix3 (0 : Fin 1) r e) = out X θ W1 W2 i := by
  rw [pay_apply]
  unfold Cert.TokenMlp.out Cert.TokenMlp.hidden
  refine Finset.sum_congr rfl fun f _ => ?_
  rw [h3 f]
  refine congrArg (· * W2 (ix2 (i 2) f)) ?_
  refine congrArg (max · (Ideal.ofBits .f32 0x00000000#32)) ?_
  refine Finset.sum_congr rfl fun q _ => ?_
  rw [h0 q, h1 q, h2 q f]

end Cert.KernelIdeal.Body

end
-- ==== Proof.Operands.lean ====
/- What the kernel region finds in its operand arrays.

   Before the region the host computes three arrays from the arguments: the cosine of each of the 8 angles, and the two
   weight matrices transposed (then narrowed, which is the identity on the extended reals). Read at an index:
   the cosine array at q is cos θ[q]; the first transposed matrix at (q, f) is W1[f, q]; the second at (f, e) is W2[e, f]. -/
import proofs.«134714_j65481071396684_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Operands

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The angles' cosines, as an array. -/
theorem cosines_eq (c : Dev nD) :
    (V m c main_v0 : S8.Idx → EReal) = Host.cos (F := Ideal) (s := S8) (φ := .f32) (m ((c : Thread nD τ).loc main_arg1)) := by
  dsimp only [V, hostOps0]
  after_results

/-- The first weight matrix, transposed. -/
theorem w1t_eq (c : Dev nD) :
    (V m c main_v2 : S8x1024.Idx → EReal)
      = truncf (F := Ideal) .bf16 (transpose S8x1024 [1, 0] (m ((c : Thread nD τ).loc main_arg2) : S1024x8.Idx → EReal) transposes_S1024x8_S8x1024_1_0) bitsLt_bf16_f32 := by
  dsimp only [V, hostOps0]
  after_results

/-- The second weight matrix, transposed. -/
theorem w2t_eq (c : Dev nD) :
    (V m c main_v4 : S1024x256.Idx → EReal)
      = truncf (F := Ideal) .bf16 (transpose S1024x256 [1, 0] (m ((c : Thread nD τ).loc main_arg3) : S256x1024.Idx → EReal) transposes_S256x1024_S1024x256_1_0) bitsLt_bf16_f32 := by
  dsimp only [V, hostOps0]
  after_results

/-- The cosine array at wire q. -/
theorem cosines_apply (c : Dev nD) (q : Fin 8) :
    (V m c main_v0 : S8.Idx → EReal) (ix1 q) = Ideal.cos ((m ((c : Thread nD τ).loc main_arg1) : S8.Idx → EReal) (ix1 q)) := by
  rw [cosines_eq]; rfl

/-- The first transposed matrix at (q, f) is the argument at (f, q). -/
theorem w1t_apply (c : Dev nD) (q : Fin 8) (f : Fin 1024) :
    (V m c main_v2 : S8x1024.Idx → EReal) (ix2 q f) = (m ((c : Thread nD τ).loc main_arg2) : S1024x8.Idx → EReal) (ix2 f q) := by
  rw [w1t_eq]
  show transpose S8x1024 [1, 0] _ _ (ix2 q f) = _
  refine transpose_apply _ _ _ (ix2 q f) (ix2 f q) (fun b => ?_)
  match b with
  | ⟨0, _⟩ => rfl
  | ⟨1, _⟩ => rfl

/-- The second transposed matrix at (f, e) is the argument at (e, f). -/
theorem w2t_apply (c : Dev nD) (f : Fin 1024) (e : Fin 256) :
    (V m c main_v4 : S1024x256.Idx → EReal) (ix2 f e) = (m ((c : Thread nD τ).loc main_arg3) : S256x1024.Idx → EReal) (ix2 e f) := by
  rw [w2t_eq]
  show transpose S1024x256 [1, 0] _ _ (ix2 f e) = _
  refine transpose_apply _ _ _ (ix2 f e) (ix2 e f) (fun b => ?_)
  match b with
  | ⟨0, _⟩ => rfl
  | ⟨1, _⟩ => rfl

end Cert.KernelIdeal.Operands

end
-- ==== Proof.ResultArray.lean ====
/- The result array after the kernel's run is the specification.

   The grid has 8 × 4 points; point (b, j) handles the 1024 tokens s = 1024·j … 1024·j + 1023 of batch row b. Its token block
   is rows (b, 1024·j + r) of x, and the block it writes back is the same rows of the result; the three other operands are
   whole arrays at every point. So what a point writes back is the specification restricted to its block, the 32 blocks
   tile the result array, and the array ends holding the specification everywhere. -/
import proofs.«134714_j65481071396684_1_alg».proof.Proof.Gen.KernelIdeal.Value
import proofs.«134714_j65481071396684_1_alg».proof.Proof.TokenEntry
import proofs.«134714_j65481071396684_1_alg».proof.Proof.Operands
import Idealize.ShloMosaic.Lib.Pipeline.Value
import Idealize.ShloMosaic.Lib.ValueIdx

set_option maxRecDepth 16384

noncomputable section

namespace Cert.KernelIdeal.Result

open Cert.KernelIdeal Cert.KernelIdeal.Gen Cert.KernelIdeal.Value Cert.KernelIdeal.Body Cert.KernelIdeal.Operands Cert.TokenMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification at the arguments as launched on core c. -/
abbrev spec (c : Dev nD) : S8x4096x256.Idx → EReal :=
  out (m ((c : Thread nD τ).loc main_arg0)) (m ((c : Thread nD τ).loc main_arg1)) (m ((c : Thread nD τ).loc main_arg2))
    (m ((c : Thread nD τ).loc main_arg3))

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices over the 32 grid points: the token window moves with the result window on the batch and token axes
    and both stay at column block 0; the other three operands never move; the result's block indices stay in range. -/
theorem block_indices : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 7 ∧ win0_4.index t (1 : Fin 3) ≤ 3 :=
  (by decide +kernel : ∀ t : Fin grid0.N, _)

/-- Every (batch row, token block) pair is some point's. -/
theorem block_onto : ∀ (q0 : Fin 8) (q1 : Fin 4), ∃ t : Fin cfg0.N, win0_4.index t = ![q0.val, q1.val, 0] :=
  (by decide +kernel : ∀ (q0 : Fin 8) (q1 : Fin 4), ∃ t : Fin grid0.N, win0_4.index t = ![q0.val, q1.val, 0])

/-! ## The operand blocks at a point, as entries of the arrays -/

/-- The token block at point t, entry z, is x at the block's offset plus z. -/
theorem tokens_apply (c : Dev nD) (t : Fin cfg0.N) (z : S1x1024x256.Idx) (k : S8x4096x256.Idx)
    (h0 : (k 0).val = win0_0.index t (0 : Fin 3) * 1 + (z 0).val)
    (h1 : (k 1).val = win0_0.index t (1 : Fin 3) * 1024 + (z 1).val)
    (h2 : (k 2).val = win0_0.index t (2 : Fin 3) * 256 + (z 2).val) :
    (iblk m c 0 t : Vec Ideal S1x1024x256 .f32) z = (m ((c : Thread nD τ).loc main_arg0) : S8x4096x256.Idx → EReal) k := by
  unfold iblk
  rw [View.read_apply]
  show (V m c main_arg0 : S8x4096x256.Idx → EReal) _ = _
  refine (congrFun (V_main_arg0 m c) _).trans ?_
  refine congrArg (m ((c : Thread nD τ).loc main_arg0) : S8x4096x256.Idx → EReal) ?_
  funext a
  apply Fin.ext
  match a with
  | ⟨0, _⟩ => show win0_0.index t (0 : Fin 3) * 1 + 1 * (z 0).val = (k 0).val; omega
  | ⟨1, _⟩ => show win0_0.index t (1 : Fin 3) * 1024 + 1 * (z 1).val = (k 1).val; omega
  | ⟨2, _⟩ => show win0_0.index t (2 : Fin 3) * 256 + 1 * (z 2).val = (k 2).val; omega

/-- The cosine operand's block is the whole cosine array. -/
theorem cosblk_apply (c : Dev nD) (t : Fin cfg0.N) (z : S8.Idx) :
    (iblk m c 1 t : Vec Ideal S8 .f32) z = (V m c main_v0 : S8.Idx → EReal) z := by
  obtain ⟨-, -, -, -, e1, -⟩ := block_indices t
  unfold iblk
  rw [View.read_apply]
  show (V m c main_v0 : S8.Idx → EReal) _ = _
  refine congrArg (V m c main_v0 : S8.Idx → EReal) ?_
  funext a
  apply Fin.ext
  match a with
  | ⟨0, _⟩ => show win0_1.index t (0 : Fin 1) * 8 + 1 * (z 0).val = (z 0).val; omega

/-- The first weight operand's block is the whole transposed matrix. -/
theorem w1blk_apply (c : Dev nD) (t : Fin cfg0.N) (z : S8x1024.Idx) :
    (iblk m c 2 t : Vec Ideal S8x1024 .bf16) z = (V m c main_v2 : S8x1024.Idx → EReal) z := by
  obtain ⟨-, -, -, -, -, e20, e21, -⟩ := block_indices t
  unfold iblk
  rw [View.read_apply]
  show (V m c main_v2 : S8x1024.Idx → EReal) _ = _
  refine congrArg (V m c main_v2 : S8x1024.Idx → EReal) ?_
  funext a
  apply Fin.ext
  match a with
  | ⟨0, _⟩ => show win0_2.index t (0 : Fin 2) * 8 + 1 * (z 0).val = (z 0).val; omega
  | ⟨1, _⟩ => show win0_2.index t (1 : Fin 2) * 1024 + 1 * (z 1).val = (z 1).val; omega

/-- The second weight operand's block is the whole transposed matrix. -/
theorem w2blk_apply (c : Dev nD) (t : Fin cfg0.N) (z : S1024x256.Idx) :
    (iblk m c 3 t : Vec Ideal S1024x256 .bf16) z = (V m c main_v4 : S1024x256.Idx → EReal) z := by
  obtain ⟨-, -, -, -, -, -, -, e30, e31, -⟩ := block_indices t
  unfold iblk
  rw [View.read_apply]
  show (V m c main_v4 : S1024x256.Idx → EReal) _ = _
  refine congrArg (V m c main_v4 : S1024x256.Idx → EReal) ?_
  funext a
  apply Fin.ext
  match a with
  | ⟨0, _⟩ => show win0_3.index t (0 : Fin 2) * 1024 + 1 * (z 0).val = (z 0).val; omega
  | ⟨1, _⟩ => show win0_3.index t (1 : Fin 2) * 256 + 1 * (z 1).val = (z 1).val; omega

/-! ## What a point writes back -/

/-- Point t writes back the specification restricted to its block. -/
theorem flushed_eq (c : Dev nD) (t : Fin cfg0.N) :
    (dats m 0 c).flushed 4 t = ((cfg0.win 4).blk t).view.read (Elt Ideal) (spec m c) := by
  rw [Value.flushed4]
  unfold out0_4
  rw [View.canon_unit_zero zeros3]
  simp only [View.ld_unit_zero (S := S1x1024x256) zeros3, View.ld_unit_zero (S := S8) zeros1,
    View.ld_unit_zero (S := S8x1024) zeros2, View.ld_unit_zero (S := S1024x256) zeros2]
  obtain ⟨e00, e01, e02, e42, -, -, -, -, -, b0, b1⟩ := block_indices t
  refine funext fun (y : S1x1024x256.Idx) => ?_
  obtain ⟨a, r, e, rfl⟩ : ∃ (a : Fin 1) (r : Fin 1024) (e : Fin 256), y = ix3 a r e := ⟨y 0, y 1, y 2, eq_ix3 y⟩
  obtain rfl : a = 0 := Fin.ext (by have := a.isLt; omega)
  -- the array index under the block's entry (0, r, e)
  obtain ⟨i, hi, i0, i1, i2⟩ : ∃ i : S8x4096x256.Idx, i = ((cfg0.win 4).blk t).view.emb (ix3 (0 : Fin 1) r e)
      ∧ (i 0).val = win0_4.index t (0 : Fin 3) * 1 + 1 * 0
      ∧ (i 1).val = win0_4.index t (1 : Fin 3) * 1024 + 1 * r.val
      ∧ (i 2).val = win0_4.index t (2 : Fin 3) * 256 + 1 * e.val := ⟨_, rfl, rfl, rfl, rfl⟩
  show k0_pay1 (iblk m c 0 t) (iblk m c 1 t) (iblk m c 2 t) (iblk m c 3 t) (ix3 (0 : Fin 1) r e)
      = spec m c (((cfg0.win 4).blk t).view.emb (ix3 (0 : Fin 1) r e))
  refine (entry_eq_out (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) r e i (fun q => ?_) (fun q => ?_) (fun q f => ?_) (fun f => ?_)).trans
    (congrArg (spec m c) hi)
  · refine tokens_apply m c t (ix3 (0 : Fin 1) r (col q)) (ix3 (i 0) (i 1) (col q)) ?_ ?_ ?_
    · show (i 0).val = win0_0.index t (0 : Fin 3) * 1 + 0; omega
    · show (i 1).val = win0_0.index t (1 : Fin 3) * 1024 + r.val; omega
    · show q.val = win0_0.index t (2 : Fin 3) * 256 + q.val; omega
  · exact (cosblk_apply m c t (ix1 q)).trans (cosines_apply m c q)
  · exact (w1blk_apply m c t (ix2 q f)).trans (w1t_apply m c q f)
  · have he : i 2 = e := Fin.ext (by omega)
    rw [he]
    exact (w2blk_apply m c t (ix2 f e)).trans (w2t_apply m c f e)

/-! ## The blocks tile the array -/

/-- An index is in point t's block iff each coordinate is in the block's range on its axis. -/
theorem mem_blk (t : Fin cfg0.N) (i : S8x4096x256.Idx) :
    i ∈ ((cfg0.win 4).blk t).view.set ↔ ∀ a : Fin 3, win0_4.index t a * S1x1024x256.size a ≤ (i a).val
      ∧ (i a).val < win0_4.index t a * S1x1024x256.size a + S1x1024x256.size a := by
  show i ∈ ((View.whole main_v5).slice (win0_4.rect t)).set ↔ _
  rw [View.set_slice_whole, Rect.mem_set_unit]
  exact Iff.rfl

/-- Every index of the result array is in the block of the point (b, s / 1024). -/
theorem cover (i : S8x4096x256.Idx) : ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 256 := (i 2).isLt
  obtain ⟨t, ht⟩ := block_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 256 ≤ (i 2).val ∧ (i 2).val < win0_4.index t (2 : Fin 3) * 256 + 256; omega

/-- So the result array ends holding the specification. -/
theorem final (c : Dev nD) : (dats m 0 c).arrAt 4 cfg0.N = spec m c :=
  (dats m 0 c).arrAt_eq_of_cover 4 (spec m c) (fun t _ => flushed_eq m c t) cover

/-! ## The run, read -/

/-- Every weakly fair execution of the idealized kernel terminates with the result array at the specification of the
    arguments and the arguments unchanged. -/
theorem run : θ_run defs (onTc (τ := τ) (main (F := Ideal))) ⟨m, fun _ => 0, ρ⟩ fun r => ∀ c : Dev nD,
      r.2.mem ((c : Thread nD τ).loc main_v5) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.ReferenceIsSpec.lean ====
/- The reference computes the specification.

   Read one operation at a time, the reference's result at (b, s, e) is the sum over f of its rectified hidden unit times
   W2[e, f], the hidden unit the sum over q of (cos x[b, s, q] · cos θ[q]) · W1[f, q]: the two products contract the last
   axis of each operand, the slice keeps the first 8 columns, and the broadcast repeats the 8 cosines over all tokens.
   That is the specification term for term, the index functions being the same coordinates spelt differently. -/
import proofs.«134714_j65481071396684_1_alg».proof.Proof.Gen.ReferenceIdeal.Read
import proofs.«134714_j65481071396684_1_alg».proof.Proof.TokenMlp

noncomputable section

namespace Cert.ReferenceIdeal.IsSpec

open Cert.ReferenceIdeal Cert.ReferenceIdeal.Gen Cert.ReferenceIdeal.Read Cert.TokenMlp
open Idealize.ShloMosaic Idealize.ShloMosaic.ValueIdx
open scoped BigOperators

/-- Token (b, s)'s feature on wire q, as the reference computes it. -/
theorem feature_apply (x : (⟨S8x4096x256, .f32⟩ : BufTy).Contents (Elt Ideal)) (θ : (⟨S8, .f32⟩ : BufTy).Contents (Elt Ideal))
    (b : Fin 8) (s : Fin 4096) (q : Fin 8) :
    val_main_v5 (F := Ideal) x θ (ix3 b s q) = Ideal.cos (x (ix3 b s (col q))) * Ideal.cos (θ (ix1 q)) := by
  rw [val_main_v5_apply, val_main_v1_apply, val_main_v0_apply, val_main_v4_apply, val_main_v3_apply, val_main_v2_apply]
  have hx : idx_main_v0 (ix3 b s q) = ix3 b s (col q) :=
    funext fun a => Fin.ext (by match a with | ⟨0, _⟩ => rfl | ⟨1, _⟩ => rfl | ⟨2, _⟩ => rfl)
  have hθ : idx_main_v3 (idx_main_v4 (ix3 b s q)) = ix1 q :=
    funext fun a => Fin.ext (by match a with | ⟨0, _⟩ => rfl)
  rw [hx, hθ]
  rfl

/-- Hidden unit f of token (b, s), as the reference computes it. -/
theorem hidden_apply (x : (⟨S8x4096x256, .f32⟩ : BufTy).Contents (Elt Ideal)) (θ : (⟨S8, .f32⟩ : BufTy).Contents (Elt Ideal))
    (W1 : (⟨S1024x8, .f32⟩ : BufTy).Contents (Elt Ideal)) (b : Fin 8) (s : Fin 4096) (f : Fin 1024) :
    val_main_v7 (F := Ideal) x θ W1 (ix3 b s f) = hidden x θ W1 b s f := by
  rw [val_main_v7_apply, val_main_v6_apply, val_main_call0_v0_apply, val_main_call0_cst_apply]
  unfold Cert.TokenMlp.hidden
  show max _ (Ideal.ofBits .f32 0x00000000#32) = _
  refine congrArg (max · (Ideal.ofBits .f32 0x00000000#32)) ?_
  refine Finset.sum_congr rfl fun q _ => ?_
  have hl : lidx_main_v6 (ix3 b s f) q = ix3 b s q :=
    funext fun a => Fin.ext (by match a with | ⟨0, _⟩ => rfl | ⟨1, _⟩ => rfl | ⟨2, _⟩ => rfl)
  have hr : ridx_main_v6 (ix3 b s f) q = ix2 f q :=
    funext fun a => Fin.ext (by match a with | ⟨0, _⟩ => rfl | ⟨1, _⟩ => rfl)
  rw [hl, hr, feature_apply]

/-- The reference's result is the specification. -/
theorem result_eq (x : (⟨S8x4096x256, .f32⟩ : BufTy).Contents (Elt Ideal)) (θ : (⟨S8, .f32⟩ : BufTy).Contents (Elt Ideal))
    (W1 : (⟨S1024x8, .f32⟩ : BufTy).Contents (Elt Ideal)) (W2 : (⟨S256x1024, .f32⟩ : BufTy).Contents (Elt Ideal)) :
    val_main_v8 (F := Ideal) x θ W1 W2 = out x θ W1 W2 := by
  funext i
  obtain ⟨b, s, e, rfl⟩ : ∃ (b : Fin 8) (s : Fin 4096) (e : Fin 256), i = ix3 b s e := ⟨i 0, i 1, i 2, eq_ix3 i⟩
  rw [val_main_v8_apply]
  show _ = ∑ f : Fin 1024, hidden x θ W1 b s f * W2 (ix2 e f)
  refine Finset.sum_congr rfl fun f _ => ?_
  have hl : lidx_main_v8 (ix3 b s e) f = ix3 b s f :=
    funext fun a => Fin.ext (by match a with | ⟨0, _⟩ => rfl | ⟨1, _⟩ => rfl | ⟨2, _⟩ => rfl)
  have hr : ridx_main_v8 (ix3 b s e) f = ix2 e f :=
    funext fun a => Fin.ext (by match a with | ⟨0, _⟩ => rfl | ⟨1, _⟩ => rfl)
  rw [hl, hr, hidden_apply]

end Cert.ReferenceIdeal.IsSpec

end
-- ==== Proof.lean ====
/- A per-token two-layer network on 8 cosine features: the kernel against its reference, over the extended reals.

   Both programs compute, for token (b, s) and output column e,

     out[b, s, e] = Σ_f max (Σ_q cos(x[b, s, q]) · cos(θ[q]) · W1[f, q], 0) · W2[e, f]

   (q over the first 8 of the 256 columns of x, f over 1024 hidden units). The kernel tiles the tokens into 32 blocks of
   1024, takes the two weight matrices transposed by the host, and narrows its matrix products' operands to a shorter float
   format, which changes nothing on the extended reals; each of its matrix products into a zero accumulator is the plain sum
   over the contracted coordinate, as the reference's products are. No law beyond re-addressing the operands is used, so the
   inputs' finiteness is never needed.

   The kernel's result array is the specification (Proof/ResultArray.lean, over Proof/TokenEntry.lean and Proof/Operands.lean);
   the reference's result is the specification (Proof/ReferenceIsSpec.lean); the specification is Proof/TokenMlp.lean. The
   three frames are the generated ones, the reference's its run with the result dropped; no operation was rewritten by the
   idealization, so there is nothing to preserve. -/
import proofs.«134714_j65481071396684_1_alg».proof.Defs
import proofs.«134714_j65481071396684_1_alg».proof.Proof.Gen.Kernel
import proofs.«134714_j65481071396684_1_alg».proof.Proof.Gen.Kernel.Skeleton
import proofs.«134714_j65481071396684_1_alg».proof.Proof.Gen.Kernel.Launch
import proofs.«134714_j65481071396684_1_alg».proof.Proof.Gen.Kernel.Points
import proofs.«134714_j65481071396684_1_alg».proof.Proof.Gen.Kernel.Frame
import proofs.«134714_j65481071396684_1_alg».proof.Proof.Gen.KernelIdeal
import proofs.«134714_j65481071396684_1_alg».proof.Proof.Gen.KernelIdeal.Skeleton
import proofs.«134714_j65481071396684_1_alg».proof.Proof.Gen.KernelIdeal.Launch
import proofs.«134714_j65481071396684_1_alg».proof.Proof.Gen.KernelIdeal.Points
import proofs.«134714_j65481071396684_1_alg».proof.Proof.Gen.KernelIdeal.Frame
import proofs.«134714_j65481071396684_1_alg».proof.Proof.Gen.ReferenceIdeal
import proofs.«134714_j65481071396684_1_alg».proof.Proof.Gen.Pre_finite_inputs
import proofs.«134714_j65481071396684_1_alg».proof.Proof.Gen.KernelIdeal.Value
import proofs.«134714_j65481071396684_1_alg».proof.Proof.Gen.ReferenceIdeal.Run
import proofs.«134714_j65481071396684_1_alg».proof.Proof.Gen.ReferenceIdeal.Read
import proofs.«134714_j65481071396684_1_alg».proof.Proof.ResultArray
import proofs.«134714_j65481071396684_1_alg».proof.Proof.ReferenceIsSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array ends at the specification of its arguments and the reference's
    result at the specification of its own: the same array. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.IsSpec.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
